-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S4x100000x3 : Shape := ⟨3, ![4, 100000, 3]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S4x100000x3 : S_.BroadcastsInDim S4x100000x3 (![] : Fin 0 → Fin S4x100000x3.rank)
  reducesTo_S4x100000x3_S_d0_1_2 : S4x100000x3.ReducesTo [0, 1, 2] S_

variable [Facts]

def fn {F : FTy → Type} [FloatOps F] (main_arg0 : FVec F S4x50000x64 .f32) (main_arg1 : IVec S4x100000x3 32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_c_0 : IVec S_ 32 := constantI S_ 32 0#32
  let main_v4 : IVec S4x100000x3 32 := broadcastInDim S4x100000x3 ![] bcast_S_S4x100000x3 main_c_0
  let main_v5 : IVec S4x100000x3 1 := cmpi .sge main_arg1 main_v4
  let main_c_1 : IVec S_ 32 := constantI S_ 32 50000#32
  let main_v6 : IVec S4x100000x3 32 := broadcastInDim S4x100000x3 ![] bcast_S_S4x100000x3 main_c_1
  let main_v7 : IVec S4x100000x3 1 := cmpi .slt main_arg1 main_v6
  let main_v8 : IVec S4x100000x3 1 := andi main_v5 main_v7
  let main_c_2 : IVec S_ 1 := constantI S_ 1 1#1
  let main_v9 : IVec S_ 1 := (fun x v => Host.reduce IntOp.andi x v reducesTo_S4x100000x3_S_d0_1_2 h_S_) main_v8 main_c_2
  let main_v10 : IVec S_ 1 := andi main_v3 main_v9
  main_v10
-- ==== Kernel.lean ====
abbrev S4x50000x64 : Shape := ⟨3, ![4, 50000, 64]⟩
abbrev S4x100000x3 : Shape := ⟨3, ![4, 100000, 3]⟩
abbrev S4 : Shape := ⟨1, ![4]⟩
abbrev S_ : Shape := ⟨0, ![]⟩
abbrev S4x1x1 : Shape := ⟨3, ![4, 1, 1]⟩
abbrev S400000x3 : Shape := ⟨2, ![400000, 3]⟩
abbrev S1200000 : Shape := ⟨1, ![1200000]⟩
abbrev S400000x2 : Shape := ⟨2, ![400000, 2]⟩
abbrev S400000x1 : Shape := ⟨2, ![400000, 1]⟩
abbrev S2400000 : Shape := ⟨1, ![2400000]⟩
abbrev S200000x64 : Shape := ⟨2, ![200000, 64]⟩
abbrev S2400000x1 : Shape := ⟨2, ![2400000, 1]⟩
abbrev S1 : Shape := ⟨1, ![1]⟩
abbrev S1x1 : Shape := ⟨2, ![1, 1]⟩
abbrev S2400000x64 : Shape := ⟨2, ![2400000, 64]⟩
abbrev S200000 : Shape := ⟨1, ![200000]⟩
abbrev S200000x1 : Shape := ⟨2, ![200000, 1]⟩
abbrev S204800x64 : Shape := ⟨2, ![204800, 64]⟩
abbrev S204800x1 : Shape := ⟨2, ![204800, 1]⟩
abbrev S8192x64 : Shape := ⟨2, ![8192, 64]⟩
abbrev S8192x1 : Shape := ⟨2, ![8192, 1]⟩

abbrev nBuf : Space → Nat
  | .hbm => 64
  | .vmem => 8
  | .smem => 0
  | _ => 0

abbrev bufTy : (tb : Table) → Fin (tcTables nBuf tb) → BufTy
  | .hbm, ⟨0, _⟩ => ⟨S4x50000x64, .f32⟩
  | .hbm, ⟨1, _⟩ => ⟨S4x100000x3, .i32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4x1x1, .i32⟩
  | .hbm, ⟨7, _⟩ => ⟨S4x100000x3, .i32⟩
  | .hbm, ⟨8, _⟩ => ⟨S4x100000x3, .i32⟩
  | .hbm, ⟨9, _⟩ => ⟨S400000x3, .i32⟩
  | .hbm, ⟨10, _⟩ => ⟨S1200000, .i32⟩
  | .hbm, ⟨11, _⟩ => ⟨S400000x2, .i32⟩
  | .hbm, ⟨12, _⟩ => ⟨S400000x1, .i32⟩
  | .hbm, ⟨13, _⟩ => ⟨S400000x3, .i32⟩
  | .hbm, ⟨14, _⟩ => ⟨S1200000, .i32⟩
  | .hbm, ⟨15, _⟩ => ⟨S2400000, .i32⟩
  | .hbm, ⟨16, _⟩ => ⟨S2400000, .i32⟩
  | .hbm, ⟨17, _⟩ => ⟨S200000x64, .f32⟩
  | .hbm, ⟨18, _⟩ => ⟨S_, .i32⟩
  | .hbm, ⟨19, _⟩ => ⟨S2400000, .i32⟩
  | .hbm, ⟨20, _⟩ => ⟨S2400000, .i1⟩
  | .hbm, ⟨21, _⟩ => ⟨S_, .i32⟩
  | .hbm, ⟨22, _⟩ => ⟨S2400000, .i32⟩
  | .hbm, ⟨23, _⟩ => ⟨S2400000, .i32⟩
  | .hbm, ⟨24, _⟩ => ⟨S2400000, .i32⟩
  | .hbm, ⟨25, _⟩ => ⟨S2400000x1, .i32⟩
  | .hbm, ⟨26, _⟩ => ⟨S1, .i32⟩
  | .hbm, ⟨27, _⟩ => ⟨S_, .i32⟩
  | .hbm, ⟨28, _⟩ => ⟨S2400000x1, .i32⟩
  | .hbm, ⟨29, _⟩ => ⟨S2400000x1, .i1⟩
  | .hbm, ⟨30, _⟩ => ⟨S1x1, .i32⟩
  | .hbm, ⟨31, _⟩ => ⟨S2400000x1, .i32⟩
  | .hbm, ⟨32, _⟩ => ⟨S2400000x1, .i1⟩
  | .hbm, ⟨33, _⟩ => ⟨S2400000x1, .i1⟩
  | .hbm, ⟨34, _⟩ => ⟨S_, .i1⟩
  | .hbm, ⟨35, _⟩ => ⟨S2400000, .i1⟩
  | .hbm, ⟨36, _⟩ => ⟨S2400000x64, .f32⟩
  | .hbm, ⟨37, _⟩ => ⟨S2400000x64, .i1⟩
  | .hbm, ⟨38, _⟩ => ⟨S_, .f32⟩
  | .hbm, ⟨39, _⟩ => ⟨S2400000x64, .f32⟩
  | .hbm, ⟨40, _⟩ => ⟨S2400000x64, .f32⟩
  | .hbm, ⟨41, _⟩ => ⟨S_, .f32⟩
  | .hbm, ⟨42, _⟩ => ⟨S200000x64, .f32⟩
  | .hbm, ⟨43, _⟩ => ⟨S2400000x1, .i32⟩
  | .hbm, ⟨44, _⟩ => ⟨S200000x64, .f32⟩
  | .hbm, ⟨45, _⟩ => ⟨S_, .f32⟩
  | .hbm, ⟨46, _⟩ => ⟨S2400000, .f32⟩
  | .hbm, ⟨47, _⟩ => ⟨S_, .f32⟩
  | .hbm, ⟨48, _⟩ => ⟨S200000, .f32⟩
  | .hbm, ⟨49, _⟩ => ⟨S2400000x1, .i32⟩
  | .hbm, ⟨50, _⟩ => ⟨S200000, .f32⟩
  | .hbm, ⟨51, _⟩ => ⟨S200000x1, .f32⟩
  | .hbm, ⟨52, _⟩ => ⟨S_, .i32⟩
  | .hbm, ⟨53, _⟩ => ⟨S_, .f32⟩
  | .hbm, ⟨54, _⟩ => ⟨S204800x64, .f32⟩
  | .hbm, ⟨55, _⟩ => ⟨S_, .i32⟩
  | .hbm, ⟨56, _⟩ => ⟨S_, .f32⟩
  | .hbm, ⟨57, _⟩ => ⟨S204800x64, .f32⟩
  | .hbm, ⟨58, _⟩ => ⟨S_, .i32⟩
  | .hbm, ⟨59, _⟩ => ⟨S_, .f32⟩
  | .hbm, ⟨60, _⟩ => ⟨S204800x1, .f32⟩
  | .hbm, ⟨61, _⟩ => ⟨S204800x64, .f32⟩
  | .hbm, ⟨62, _⟩ => ⟨S200000x64, .f32⟩
  | .hbm, ⟨63, _⟩ => ⟨S4x50000x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x1, .f32⟩
  | .local _ .vmem, ⟨5, _⟩ => ⟨S8192x1, .f32⟩
  | .local _ .vmem, ⟨6, _⟩ => ⟨S8192x64, .f32⟩
  | .local _ .vmem, ⟨7, _⟩ => ⟨S8192x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_call2_v0 : Ref sig .tc := ⟨.hbm, 53, rfl⟩
abbrev main_v22 : Ref sig .tc := ⟨.hbm, 54, rfl⟩
abbrev main_c_3 : Ref sig .tc := ⟨.hbm, 55, rfl⟩
abbrev main_call3_v0 : Ref sig .tc := ⟨.hbm, 56, rfl⟩
abbrev main_v23 : Ref sig .tc := ⟨.hbm, 57, rfl⟩
abbrev main_c_4 : Ref sig .tc := ⟨.hbm, 58, rfl⟩
abbrev main_call4_v0 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x100000x3_0_1_2 : S4x1x1.BroadcastsInDim S4x100000x3 (![0, 1, 2] : Fin 3 → Fin S4x100000x3.rank)
  shapeCasts_S4x100000x3_S400000x3 : S4x100000x3.ShapeCasts S400000x3
  shapeCasts_S400000x3_S1200000 : S400000x3.ShapeCasts S1200000
  slices_S400000x3_S400000x2_0_1 : S400000x3.Slices ![0, 1] S400000x2
  slices_S400000x3_S400000x1_0_0 : S400000x3.Slices ![0, 0] S400000x1
  concatenates_S400000x2_S400000x1_S400000x3_d1 : Shape.Concatenates [S400000x2, S400000x1] S400000x3 1
  concatenates_S1200000_S1200000_S2400000_d0 : Shape.Concatenates [S1200000, S1200000] S2400000 0
  shapeCasts_S4x50000x64_S200000x64 : S4x50000x64.ShapeCasts S200000x64
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S2400000x1 : S_.BroadcastsInDim S2400000x1 (![] : Fin 0 → Fin S2400000x1.rank)
  bcast_S1_S1x1_1 : S1.BroadcastsInDim S1x1 (![1] : Fin 1 → Fin S1x1.rank)
  bcast_S1x1_S2400000x1_0_1 : S1x1.BroadcastsInDim S2400000x1 (![0, 1] : Fin 2 → Fin S2400000x1.rank)
  reducesTo_S2400000x1_S2400000_d1 : S2400000x1.ReducesTo [1] S2400000
  h_S_ : 0 < S_.numel
  bcast_S2400000_S2400000x64_0 : S2400000.BroadcastsInDim S2400000x64 (![0] : Fin 1 → Fin S2400000x64.rank)
  bcast_S_S2400000x64 : S_.BroadcastsInDim S2400000x64 (![] : Fin 0 → Fin S2400000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  pads_S200000x64_S204800x64_048000_000 : S200000x64.Pads (![0, 0] : Fin 2 → Nat) ![4800, 0] ![0, 0] S204800x64
  pads_S200000x1_S204800x1_048000_000 : S200000x1.Pads (![0, 0] : Fin 2 → Nat) ![4800, 0] ![0, 0] S204800x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S204800x64_S200000x64_0_0 : S204800x64.Slices ![0, 0] S200000x64
  shapeCasts_S200000x64_S4x50000x64 : S200000x64.ShapeCasts S4x50000x64
  gather_S200000x64_S2400000x1_S2400000x64_1_0_n_n_0_1_164_wf : GatherDims.WF S200000x64 S2400000x1 S2400000x64 [1] [0] [] [0] [] 1 ![1, 64]
  scatter_S200000x64_S2400000x1_S2400000x64_1_0_0_1_wf : ScatterDims.WF S200000x64 S2400000x1 S2400000x64 [1] [0] [0] 1
  scatter_S200000_S2400000x1_S2400000_n_0_0_1_wf : ScatterDims.WF S200000 S2400000x1 S2400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S204800x64.size a
  hwx0_0 : ∀ i : grid0.Coords, EltTy.bits .f32 = 32 ∨ (Rect.block (s := S204800x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S204800x64.size a
  hwx0_1 : ∀ i : grid0.Coords, EltTy.bits .f32 = 32 ∨ (Rect.block (s := S204800x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S204800x1.size a
  hwx0_2 : ∀ i : grid0.Coords, EltTy.bits .f32 = 32 ∨ (Rect.block (s := S204800x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S204800x64.size a
  hwx0_3 : ∀ i : grid0.Coords, EltTy.bits .f32 = 32 ∨ (Rect.block (s := S204800x64) S8192x64.size (cc0_transform_3 i) (hinb0_3 i)).WholeWords (EltTy.packing .f32)

variable [Facts₀]

def gather_S200000x64_S2400000x1_S2400000x64_1_0_n_n_0_1_164 : GatherDims S200000x64 S2400000x1 S2400000x64 where
  offsetDims := [1]
  collapsedSliceDims := [0]
  operandBatchingDims := []
  startIndicesBatchingDims := []
  startIndexMap := [0]
  indexVectorDim := 1
  sliceSizes := ![1, 64]
  wf := gather_S200000x64_S2400000x1_S2400000x64_1_0_n_n_0_1_164_wf
def scatter_S200000x64_S2400000x1_S2400000x64_1_0_0_1 : ScatterDims S200000x64 S2400000x1 S2400000x64 where
  updateWindowDims := [1]
  insertedWindowDims := [0]
  scatterDimsToOperandDims := [0]
  indexVectorDim := 1
  wf := scatter_S200000x64_S2400000x1_S2400000x64_1_0_0_1_wf
def scatter_S200000_S2400000x1_S2400000_n_0_0_1 : ScatterDims S200000 S2400000x1 S2400000 where
  updateWindowDims := []
  insertedWindowDims := [0]
  scatterDimsToOperandDims := [0]
  indexVectorDim := 1
  wf := scatter_S200000_S2400000x1_S2400000_n_0_0_1_wf

abbrev win0_0 : Pipeline.Window sig grid0 :=
  Pipeline.Window.ofSpec (Memref.whole main_v22) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S4x100000x3 : Shape := ⟨3, ![4, 100000, 3]⟩
abbrev S4 : Shape := ⟨1, ![4]⟩
abbrev S_ : Shape := ⟨0, ![]⟩
abbrev S4x1x1 : Shape := ⟨3, ![4, 1, 1]⟩
abbrev S400000x3 : Shape := ⟨2, ![400000, 3]⟩
abbrev S1200000 : Shape := ⟨1, ![1200000]⟩
abbrev S400000x2 : Shape := ⟨2, ![400000, 2]⟩
abbrev S400000x1 : Shape := ⟨2, ![400000, 1]⟩
abbrev S2400000 : Shape := ⟨1, ![2400000]⟩
abbrev S200000x64 : Shape := ⟨2, ![200000, 64]⟩
abbrev S2400000x1 : Shape := ⟨2, ![2400000, 1]⟩
abbrev S2400000x64 : Shape := ⟨2, ![2400000, 64]⟩
abbrev S200000 : Shape := ⟨1, ![200000]⟩
abbrev S200000x1 : Shape := ⟨2, ![200000, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S4x100000x3, .i32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4x1x1, .i32⟩
  | .hbm, ⟨7, _⟩ => ⟨S4x100000x3, .i32⟩
  | .hbm, ⟨8, _⟩ => ⟨S4x100000x3, .i32⟩
  | .hbm, ⟨9, _⟩ => ⟨S400000x3, .i32⟩
  | .hbm, ⟨10, _⟩ => ⟨S1200000, .i32⟩
  | .hbm, ⟨11, _⟩ => ⟨S400000x2, .i32⟩
  | .hbm, ⟨12, _⟩ => ⟨S400000x1, .i32⟩
  | .hbm, ⟨13, _⟩ => ⟨S400000x3, .i32⟩
  | .hbm, ⟨14, _⟩ => ⟨S1200000, .i32⟩
  | .hbm, ⟨15, _⟩ => ⟨S2400000, .i32⟩
  | .hbm, ⟨16, _⟩ => ⟨S2400000, .i32⟩
  | .hbm, ⟨17, _⟩ => ⟨S200000x64, .f32⟩
  | .hbm, ⟨18, _⟩ => ⟨S_, .i32⟩
  | .hbm, ⟨19, _⟩ => ⟨S2400000, .i32⟩
  | .hbm, ⟨20, _⟩ => ⟨S2400000, .i1⟩
  | .hbm, ⟨21, _⟩ => ⟨S_, .i32⟩
  | .hbm, ⟨22, _⟩ => ⟨S2400000, .i32⟩
  | .hbm, ⟨23, _⟩ => ⟨S2400000, .i32⟩
  | .hbm, ⟨24, _⟩ => ⟨S2400000, .i32⟩
  | .hbm, ⟨25, _⟩ => ⟨S2400000x1, .i32⟩
  | .hbm, ⟨26, _⟩ => ⟨S2400000x64, .f32⟩
  | .hbm, ⟨27, _⟩ => ⟨S_, .f32⟩
  | .hbm, ⟨28, _⟩ => ⟨S200000x64, .f32⟩
  | .hbm, ⟨29, _⟩ => ⟨S2400000x1, .i32⟩
  | .hbm, ⟨30, _⟩ => ⟨S200000x64, .f32⟩
  | .hbm, ⟨31, _⟩ => ⟨S_, .f32⟩
  | .hbm, ⟨32, _⟩ => ⟨S2400000, .f32⟩
  | .hbm, ⟨33, _⟩ => ⟨S_, .f32⟩
  | .hbm, ⟨34, _⟩ => ⟨S200000, .f32⟩
  | .hbm, ⟨35, _⟩ => ⟨S2400000x1, .i32⟩
  | .hbm, ⟨36, _⟩ => ⟨S200000, .f32⟩
  | .hbm, ⟨37, _⟩ => ⟨S200000x1, .f32⟩
  | .hbm, ⟨38, _⟩ => ⟨S200000x64, .f32⟩
  | .hbm, ⟨39, _⟩ => ⟨S200000x64, .f32⟩
  | .hbm, ⟨40, _⟩ => ⟨S200000x64, .f32⟩
  | .hbm, ⟨41, _⟩ => ⟨S200000x1, .f32⟩
  | .hbm, ⟨42, _⟩ => ⟨S_, .f32⟩
  | .hbm, ⟨43, _⟩ => ⟨S200000x1, .f32⟩
  | .hbm, ⟨44, _⟩ => ⟨S200000x1, .f32⟩
  | .hbm, ⟨45, _⟩ => ⟨S200000x64, .f32⟩
  | .hbm, ⟨46, _⟩ => ⟨S200000x64, .f32⟩
  | .hbm, ⟨47, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x100000x3_0_1_2 : S4x1x1.BroadcastsInDim S4x100000x3 (![0, 1, 2] : Fin 3 → Fin S4x100000x3.rank)
  shapeCasts_S4x100000x3_S400000x3 : S4x100000x3.ShapeCasts S400000x3
  shapeCasts_S400000x3_S1200000 : S400000x3.ShapeCasts S1200000
  slices_S400000x3_S400000x2_0_1 : S400000x3.Slices ![0, 1] S400000x2
  slices_S400000x3_S400000x1_0_0 : S400000x3.Slices ![0, 0] S400000x1
  concatenates_S400000x2_S400000x1_S400000x3_d1 : Shape.Concatenates [S400000x2, S400000x1] S400000x3 1
  concatenates_S1200000_S1200000_S2400000_d0 : Shape.Concatenates [S1200000, S1200000] S2400000 0
  shapeCasts_S4x50000x64_S200000x64 : S4x50000x64.ShapeCasts S200000x64
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S200000x1 : S_.BroadcastsInDim S200000x1 (![] : Fin 0 → Fin S200000x1.rank)
  shapeCasts_S200000x64_S4x50000x64 : S200000x64.ShapeCasts S4x50000x64
  gather_S200000x64_S2400000x1_S2400000x64_1_0_n_n_0_1_164_wf : GatherDims.WF S200000x64 S2400000x1 S2400000x64 [1] [0] [] [0] [] 1 ![1, 64]
  scatter_S200000x64_S2400000x1_S2400000x64_1_0_0_1_wf : ScatterDims.WF S200000x64 S2400000x1 S2400000x64 [1] [0] [0] 1
  scatter_S200000_S2400000x1_S2400000_n_0_0_1_wf : ScatterDims.WF S200000 S2400000x1 S2400000 [] [0] [0] 1

variable [Facts₀]

def gather_S200000x64_S2400000x1_S2400000x64_1_0_n_n_0_1_164 : GatherDims S200000x64 S2400000x1 S2400000x64 where
  offsetDims := [1]
  collapsedSliceDims := [0]
  operandBatchingDims := []
  startIndicesBatchingDims := []
  startIndexMap := [0]
  indexVectorDim := 1
  sliceSizes := ![1, 64]
  wf := gather_S200000x64_S2400000x1_S2400000x64_1_0_n_n_0_1_164_wf
def scatter_S200000x64_S2400000x1_S2400000x64_1_0_0_1 : ScatterDims S200000x64 S2400000x1 S2400000x64 where
  updateWindowDims := [1]
  insertedWindowDims := [0]
  scatterDimsToOperandDims := [0]
  indexVectorDim := 1
  wf := scatter_S200000x64_S2400000x1_S2400000x64_1_0_0_1_wf
def scatter_S200000_S2400000x1_S2400000_n_0_0_1 : ScatterDims S200000 S2400000x1 S2400000 where
  updateWindowDims := []
  insertedWindowDims := [0]
  scatterDimsToOperandDims := [0]
  indexVectorDim := 1
  wf := scatter_S200000_S2400000x1_S2400000_n_0_0_1_wf

class Facts : Prop extends Facts₀ where

variable [Facts]
-- ==== Proof.KernelHostDefs.lean ====
/-
  The kernel's host code in front of its call, named: the range test on the gather index, the gathered rows it guards
  (the reference's gather where the test passes, NaN elsewhere), the neighbour sums over those rows and the padding value.
  The index lists and the plain gather are the reference's own stages, operation for operation.
-/
import proofs.«406459_j39814346834440_3_alg».proof.Proof.Gen.KernelIdeal
import proofs.«406459_j39814346834440_3_alg».proof.Proof.Gen.ReferenceIdeal.Read

noncomputable section

open Idealize.ShloMosaic Idealize.ShloMosaic.TcCoe Idealize.SL.Sem Idealize.ShloMosaic.StableHlo

namespace Cert.KernelIdeal.HostVal

open Cert.KernelIdeal Cert.KernelIdeal.Gen

variable {F : FTy → Type} [FloatOps F]

/-- The range test on the gather index, row by row: `0 ≤ index ≤ 199999`. -/
def rowOk (x1 : S4x100000x3.Idx → BitVec 32) : S2400000.Idx → BitVec 1 :=
  Host.reduce IntOp.andi
    (andi (cmpi .sge (Cert.ReferenceIdeal.Read.val_main_v18 (F := F) x1) (broadcastInDim S2400000x1 ![] bcast_S_S2400000x1 (constantI S_ 32 0#32)))
      (cmpi .sle (Cert.ReferenceIdeal.Read.val_main_v18 (F := F) x1)
        (broadcastInDim S2400000x1 ![0, 1] bcast_S1x1_S2400000x1_0_1 (broadcastInDim S1x1 ![1] bcast_S1_S1x1_1 (constantI S1 32 199999#32)))))
    (constantI S_ 1 1#1) reducesTo_S2400000x1_S2400000_d1 h_S_

/-- The gathered rows as the kernel's host code leaves them: the reference's gather where the index passes the range
    test, NaN elsewhere. -/
def takeRows (x0 : S4x50000x64.Idx → F .f32) (x1 : S4x100000x3.Idx → BitVec 32) : S2400000x64.Idx → F .f32 :=
  select (broadcastInDim S2400000x64 ![0] bcast_S2400000_S2400000x64_0 (rowOk (F := F) x1))
    (Cert.ReferenceIdeal.Read.val_main_v19 (F := F) x0 x1)
    (broadcastInDim S2400000x64 ![] bcast_S_S2400000x64 (constant S_ .f32 0x7FC00000#32))

/-- The neighbour sums over those rows. -/
def neighRows (x0 : S4x50000x64.Idx → F .f32) (x1 : S4x100000x3.Idx → BitVec 32) : S200000x64.Idx → F .f32 :=
  Host.scatterAdd scatter_S200000x64_S2400000x1_S2400000x64_1_0_0_1 (Cert.ReferenceIdeal.Read.val_main_v20 (F := F))
    (Cert.ReferenceIdeal.Read.val_main_v21 (F := F) x1) (takeRows x0 x1)

/-- The padding value: the integer zero converted. -/
def padZero : S_.Idx → F .f32 := sitofp .f32 (constantI S_ 32 0#32)

end Cert.KernelIdeal.HostVal

end
-- ==== Proof.KernelHost.lean ====
/-
  What the three padded operands of the normalising kernel hold when its grid starts, as terms of the two inputs: the
  flattened vertex table, the neighbour sums and the degree column, each padded with 4800 rows. The index arithmetic in
  front (offsets, the corner shift, the two half-edge lists) and the degree count are, operation for operation, the
  reference's own stages; the neighbour sums differ only in the gathered rows, which the kernel guards with a range
  test on the gather index and fills with NaN where the test fails. The neighbour sums are read in three stretches of
  the host code: the index lists and the flat table; the guarded gather over them; the sum and the padding.
-/
import proofs.«406459_j39814346834440_3_alg».proof.Proof.Gen.KernelIdeal.Frame
import proofs.«406459_j39814346834440_3_alg».proof.Proof.KernelHostDefs
import Idealize.ShloMosaic.Lib.StableHlo.Run

noncomputable section

open Idealize.ShloMosaic Idealize.ShloMosaic.TcCoe Idealize.SL.Sem Idealize.ShloMosaic.StableHlo

namespace Cert.KernelIdeal.HostVal

open Cert.KernelIdeal Cert.KernelIdeal.Gen

variable {F : FTy → Type} [FloatOps F]

/-- Running two stretches of host operations one after the other. -/
theorem after_append : ∀ (l₁ l₂ : List (HloOp τ sig (Elt F))) (A : Valuation τ sig (Elt F)),
    StableHlo.after (l₁ ++ l₂) A = StableHlo.after l₂ (StableHlo.after l₁ A)
  | [], _, _ => rfl
  | op :: l₁, l₂, A => by rw [List.cons_append, after_cons, after_cons, after_append l₁ l₂]

/-- A typed reference's two transports cancel. -/
theorem ofBuf_toBuf {T : BufTy} (x : TRef sig T) (v : T.Contents (Elt F)) : x.ofBuf (x.toBuf v) = v := by
  obtain ⟨ref, ty_eq, on_device, unscoped⟩ := x
  subst ty_eq
  rfl

/-- Contents written to the gathered rows' buffer are those contents. -/
theorem toBuf_v13 (Y : S2400000x64.Idx → F .f32) :
    (TRef.of (T := ⟨S2400000x64, .f32⟩) main_v13).toBuf (Val := Elt F) Y = Y := rfl

/-- Contents written to the second operand's buffer are those contents. -/
theorem toBuf_v23 (Y : S204800x64.Idx → F .f32) :
    (TRef.of (T := ⟨S204800x64, .f32⟩) main_v23).toBuf (Val := Elt F) Y = Y := rfl

/-- The gather index: the half-edge end with a negative value wrapped by the table's 200000 rows, as a column. -/
def wrapIdx (dst : S2400000.Idx → BitVec 32) : S2400000x1.Idx → BitVec 32 :=
  broadcastInDim S2400000x1 ![0] bcast_S2400000_S2400000x1_0
    (select (cmpi .slt dst (broadcastInDim S2400000 ![] bcast_S_S2400000 (constantI S_ 32 0#32)))
      (addi dst (broadcastInDim S2400000 ![] bcast_S_S2400000 (constantI S_ 32 200000#32))) dst)

/-- The guarded gather of the rows `dst` of a table `vf`: the row where `0 ≤ index ≤ 199999`, NaN elsewhere. -/
def guarded (vf : S200000x64.Idx → F .f32) (dst : S2400000.Idx → BitVec 32) : S2400000x64.Idx → F .f32 :=
  select (broadcastInDim S2400000x64 ![0] bcast_S2400000_S2400000x64_0
      (Host.reduce IntOp.andi
        (andi (cmpi .sge (wrapIdx dst) (broadcastInDim S2400000x1 ![] bcast_S_S2400000x1 (constantI S_ 32 0#32)))
          (cmpi .sle (wrapIdx dst)
            (broadcastInDim S2400000x1 ![0, 1] bcast_S1x1_S2400000x1_0_1 (broadcastInDim S1x1 ![1] bcast_S1_S1x1_1 (constantI S1 32 199999#32)))))
        (constantI S_ 1 1#1) reducesTo_S2400000x1_S2400000_d1 h_S_))
    (Host.gather gather_S200000x64_S2400000x1_S2400000x64_1_0_n_n_0_1_164 vf (wrapIdx dst))
    (broadcastInDim S2400000x64 ![] bcast_S_S2400000x64 (constant S_ .f32 0x7FC00000#32))

/-- The kernel's gathered rows are the guarded gather of the reference's flat table at the reference's index list. -/
theorem takeRows_eq_guarded (x0 : S4x50000x64.Idx → F .f32) (x1 : S4x100000x3.Idx → BitVec 32) :
    takeRows x0 x1 = guarded (Cert.ReferenceIdeal.Read.val_main_v12 (F := F) x0) (Cert.ReferenceIdeal.Read.val_main_v11 (F := F) x1) := rfl

/-- The sums of the rows `rows` into the vertices `src`, padded. -/
def paddedSums (src : S2400000.Idx → BitVec 32) (rows : S2400000x64.Idx → F .f32) : S204800x64.Idx → F .f32 :=
  pad S204800x64 ![0, 0] ![4800, 0] ![0, 0]
    (Host.scatterAdd scatter_S200000x64_S2400000x1_S2400000x64_1_0_0_1
      (broadcastInDim S200000x64 ![] bcast_S_S200000x64 (constant S_ .f32 0x00000000#32))
      (broadcastInDim S2400000x1 ![0] bcast_S2400000_S2400000x1_0 src) rows)
    (padZero (F := F)) pads_S200000x64_S204800x64_048000_000 h_S_

variable (m : (ℓ : Loc nD τ sig) → Buf (Elt F) ℓ)

set_option maxHeartbeats 4000000 in
set_option maxRecDepth 8192 in
/-- The first operand: the flattened vertex table, padded. -/
theorem v22_eq (c : Dev nD) : V m c main_v22
    = pad S204800x64 ![0, 0] ![4800, 0] ![0, 0] (Cert.ReferenceIdeal.Read.val_main_v12 (F := F) (m ((c : Thread nD τ).loc main_arg0)))
        (padZero (F := F)) pads_S200000x64_S204800x64_048000_000 h_S_ := by
  show StableHlo.after (List.flatten [hostOps0, hostOps0_1, hostOps0_2, hostOps0_3, hostOps0_4, hostOps0_5, hostOps0_6, hostOps0_7, hostOps0_8, hostOps0_9]) (fun b => m (c, b)) (Proc.devRef .tc main_v22) = _
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

set_option maxHeartbeats 4000000 in
set_option maxRecDepth 8192 in
/-- The third operand: the degree column, padded. -/
theorem v24_eq (c : Dev nD) : V m c main_v24
    = pad S204800x1 ![0, 0] ![4800, 0] ![0, 0] (Cert.ReferenceIdeal.Read.val_main_v27 (F := F) (m ((c : Thread nD τ).loc main_arg1)))
        (padZero (F := F)) pads_S200000x1_S204800x1_048000_000 h_S_ := by
  show StableHlo.after (List.flatten [hostOps0, hostOps0_1, hostOps0_2, hostOps0_3, hostOps0_4, hostOps0_5, hostOps0_6, hostOps0_7, hostOps0_8, hostOps0_9]) (fun b => m (c, b)) (Proc.devRef .tc main_v24) = _
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

/-! The second operand, stretch by stretch. -/

set_option maxHeartbeats 2000000 in
set_option maxRecDepth 8192 in
/-- First stretch: the two half-edge lists and the flat vertex table are the reference's. -/
theorem lists_eq (c : Dev nD) :
    StableHlo.after (hostOps0 ++ (hostOps0_1 ++ hostOps0_2)) (fun b => m (c, b)) (Proc.devRef .tc main_v10)
        = Cert.ReferenceIdeal.Read.val_main_v10 (F := F) (m ((c : Thread nD τ).loc main_arg1))
    ∧ StableHlo.after (hostOps0 ++ (hostOps0_1 ++ hostOps0_2)) (fun b => m (c, b)) (Proc.devRef .tc main_v11)
        = Cert.ReferenceIdeal.Read.val_main_v11 (F := F) (m ((c : Thread nD τ).loc main_arg1))
    ∧ StableHlo.after (hostOps0 ++ (hostOps0_1 ++ hostOps0_2)) (fun b => m (c, b)) (Proc.devRef .tc main_v12)
        = Cert.ReferenceIdeal.Read.val_main_v12 (F := F) (m ((c : Thread nD τ).loc main_arg0)) := by
  simp only [Gen.hostOps0, Gen.hostOps0_1, Gen.hostOps0_2, List.append_nil, List.cons_append, List.nil_append]
  refine ⟨?_, ?_, ?_⟩
  · after_results; rfl
  · after_results; rfl
  · after_results; rfl

set_option maxHeartbeats 2000000 in
set_option maxRecDepth 8192 in
/-- Second stretch, over any contents before it: the guarded gather of the flat table at the second list; the first list
    is left as it was. -/
theorem gather_stretch (A : Valuation τ sig (Elt F)) :
    StableHlo.after hostOps0_3 A (Proc.devRef .tc main_v13)
        = guarded (F := F) (A (Proc.devRef .tc main_v12)) (A (Proc.devRef .tc main_v11))
    ∧ StableHlo.after hostOps0_3 A (Proc.devRef .tc main_v10) = A (Proc.devRef .tc main_v10) := by
  simp only [Gen.hostOps0_3]
  refine ⟨?_, ?_⟩
  · after_results
    simp only [ofBuf_toBuf]
    rw [toBuf_v13]
    rfl
  · after_results

set_option maxHeartbeats 2000000 in
set_option maxRecDepth 8192 in
/-- Third stretch, over any contents before it: the gathered rows summed into the vertices of the first list, padded. -/
theorem sums_stretch (A : Valuation τ sig (Elt F)) :
    StableHlo.after (hostOps0_4 ++ (hostOps0_5 ++ (hostOps0_6 ++ (hostOps0_7 ++ (hostOps0_8 ++ hostOps0_9))))) A (Proc.devRef .tc main_v23)
      = paddedSums (F := F) (A (Proc.devRef .tc main_v10)) (A (Proc.devRef .tc main_v13)) := by
  simp only [Gen.hostOps0_4, Gen.hostOps0_5, Gen.hostOps0_6, Gen.hostOps0_7, Gen.hostOps0_8, Gen.hostOps0_9, List.append_nil, List.cons_append, List.nil_append]
  after_results
  simp only [ofBuf_toBuf]
  rw [toBuf_v23]
  rfl

/-- The second operand: the neighbour sums over the guarded rows, padded. -/
theorem v23_eq (c : Dev nD) : V m c main_v23
    = pad S204800x64 ![0, 0] ![4800, 0] ![0, 0]
        (neighRows (F := F) (m ((c : Thread nD τ).loc main_arg0)) (m ((c : Thread nD τ).loc main_arg1)))
        (padZero (F := F)) pads_S200000x64_S204800x64_048000_000 h_S_ := by
  show StableHlo.after (List.flatten [hostOps0, hostOps0_1, hostOps0_2, hostOps0_3, hostOps0_4, hostOps0_5, hostOps0_6, hostOps0_7, hostOps0_8, hostOps0_9]) (fun b => m (c, b)) (Proc.devRef .tc main_v23) = _
  rw [show List.flatten [hostOps0, hostOps0_1, hostOps0_2, hostOps0_3, hostOps0_4, hostOps0_5, hostOps0_6, hostOps0_7, hostOps0_8, hostOps0_9] = (hostOps0 ++ (hostOps0_1 ++ hostOps0_2)) ++ (hostOps0_3 ++ (hostOps0_4 ++ (hostOps0_5 ++ (hostOps0_6 ++ (hostOps0_7 ++ (hostOps0_8 ++ hostOps0_9))))))
      from by simp only [List.flatten_cons, List.flatten_nil, List.append_nil, List.append_assoc],
    after_append, after_append, sums_stretch, (gather_stretch _).1, (gather_stretch _).2,
    (lists_eq m c).1, (lists_eq m c).2.1, (lists_eq m c).2.2, ← takeRows_eq_guarded]
  rfl

end Cert.KernelIdeal.HostVal

end
-- ==== Proof.KernelValue.lean ====
/-
  What the normalising kernel leaves in its padded result array, and what @main returns from it. At grid point t the
  body reads rows `8192 t … 8192 t + 8191` of the padded vertex table `A`, of the padded neighbour sums `B` and of the
  padded degree column `D`, and writes `(D[r] · A[r, d] − B[r, d]) / (D[r] + ε)` to the same rows of the result: every
  block is the restriction of ONE function of the three arrays, the 25 blocks tile the 204800 rows, so the result array is
  that function everywhere. The two host lines after the call keep its first 200000 rows and regroup them by batch.
-/
import proofs.«406459_j39814346834440_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Normalized

open Cert.KernelIdeal Cert.KernelIdeal.Gen

variable {F : FTy → Type} [FloatOps F]

theorem hz : (![0, 0] : Fin 2 → Nat) = fun _ => 0 := funext fun a => by fin_cases a <;> rfl

/-- The degree entry that goes with entry `j` of a block: its row, column 0. -/
abbrev blkRow (j : S8192x64.Idx) : S8192x1.Idx := fun a => match a with
  | ⟨0, _⟩ => ⟨(j 0).val, (j 0).isLt⟩
  | ⟨1, _⟩ => ⟨0, Nat.one_pos⟩

/-- The degree entry that goes with entry `i` of a padded array: its row, column 0. -/
abbrev arrRow (i : S204800x64.Idx) : S204800x1.Idx := fun a => match a with
  | ⟨0, _⟩ => ⟨(i 0).val, (i 0).isLt⟩
  | ⟨1, _⟩ => ⟨0, Nat.one_pos⟩

/-- The result array as one function of the three padded operands: `(D[r] · A[r, d] − B[r, d]) / (D[r] + ε)`. -/
def normalized (A B : S204800x64.Idx → F .f32) (D : S204800x1.Idx → F .f32) : S204800x64.Idx → F .f32 := fun i =>
  FloatOps.divf (FloatOps.subf (FloatOps.mulf (D (arrRow i)) (A i)) (B i))
    (FloatOps.addf (D (arrRow i)) (Scalar.ofBits .f32 0x2B8CBCCC#32))

/-- The body's one stored value at an entry of the block: the same expression of the three loaded blocks (the degree
    block broadcast along the 64 columns). -/
theorem pay_apply (v0 v2 : Vec F S8192x64 .f32) (v4 : Vec F S8192x1 .f32) (j : S8192x64.Idx) :
    k0_pay1 v0 v2 v4 j = FloatOps.divf (FloatOps.subf (FloatOps.mulf (v4 (blkRow j)) (v0 j)) (v2 j))
      (FloatOps.addf (v4 (blkRow j)) (Scalar.ofBits .f32 0x2B8CBCCC#32)) := by
  unfold k0_pay1
  simp only [shapeCast_self]
  have hb : ∀ x : S8192x1.Idx → F .f32, broadcastTo S8192x64 x broadcasts_S8192x1_S8192x64 j = x (blkRow j) := fun x =>
    broadcastTo_apply x broadcasts_S8192x1_S8192x64 j (blkRow j) (fun a => match a with
      | ⟨0, _⟩ => by show (j 0).val = if (8192 : Nat) = 1 then 0 else (j 0).val; rw [if_neg (by decide)]
      | ⟨1, _⟩ => by show 0 = if (1 : Nat) = 1 then 0 else (j 1).val; rw [if_pos rfl])
  show FloatOps.divf (FloatOps.subf (FloatOps.mulf (broadcastTo S8192x64 v4 broadcasts_S8192x1_S8192x64 j) (v0 j)) (v2 j))
    (broadcastTo S8192x64 (addf v4 (broadcast S8192x1 (Scalar.ofBits .f32 0x2B8CBCCC#32))) broadcasts_S8192x1_S8192x64 j) = _
  rw [hb, hb]
  rfl

/-- The same, for the whole block. -/
theorem pay_eq (v0 v2 : Vec F S8192x64 .f32) (v4 : Vec F S8192x1 .f32) :
    k0_pay1 v0 v2 v4 = fun j => FloatOps.divf (FloatOps.subf (FloatOps.mulf (v4 (blkRow j)) (v0 j)) (v2 j))
      (FloatOps.addf (v4 (blkRow j)) (Scalar.ofBits .f32 0x2B8CBCCC#32)) := funext (pay_apply v0 v2 v4)

variable (m : (ℓ : Loc nD τ sig) → Buf (Elt F) ℓ) (ρ : Dev nD → PrngReg)

/-- The printed index maps over the 25 grid points: the three row-block windows move together with the result's, all at
    column block 0, and the result's row block stays below 25. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = 0
    ∧ win0_3.index t (0 : Fin 2) ≤ 24 ∧ win0_3.index t (1 : Fin 2) = 0 :=
  (by decide +kernel : ∀ t : Fin grid0.N, _)

/-- Every row block is some point's. -/
theorem idx_onto : ∀ q : Fin 25, ∃ t : Fin cfg0.N, win0_3.index t = ![q.val, 0] :=
  (by decide +kernel : ∀ q : Fin 25, ∃ t : Fin grid0.N, win0_3.index t = ![q.val, 0])

set_option maxHeartbeats 2000000 in
/-- What point `t` writes back is block `t` of `normalized` of the three operand arrays as the call finds them. -/
theorem flushed_eq (c : Dev nD) (t : Fin cfg0.N) :
    (dats m 0 c).flushed 3 t
      = ((cfg0.win 3).blk t).view.read (Elt F) (normalized (V m c main_v22) (V m c main_v23) (V m c main_v24)) := by
  show (cfg0.win 3).cut (grid0.coords t) ((dats m 0 c).after 3 t) = _
  rw [after0_3]
  unfold out0_3
  rw [View.canon_unit_zero hz]
  simp only [View.ld_unit_zero (S := S8192x64) hz, View.ld_unit_zero (S := S8192x1) hz]
  rw [pay_eq]
  obtain ⟨e0, e1, e2, e3, e4, e5, e6, e7⟩ := idx_facts t
  funext j
  show FloatOps.divf (FloatOps.subf (FloatOps.mulf (V m c main_v24 (((cfg0.win 2).blk t).view.emb (blkRow j)))
        (V m c main_v22 (((cfg0.win 0).blk t).view.emb j))) (V m c main_v23 (((cfg0.win 1).blk t).view.emb j)))
      (FloatOps.addf (V m c main_v24 (((cfg0.win 2).blk t).view.emb (blkRow j))) (Scalar.ofBits .f32 0x2B8CBCCC#32))
    = normalized (V m c main_v22) (V m c main_v23) (V m c main_v24) (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 8192 + 1 * (j 0).val = win0_3.index t (0 : Fin 2) * 8192 + 1 * (j 0).val; omega
    | ⟨1, _⟩ => show win0_1.index t (1 : Fin 2) * 64 + 1 * (j 1).val = win0_3.index t (1 : Fin 2) * 64 + 1 * (j 1).val; omega
  have h2 : ((cfg0.win 2).blk t).view.emb (blkRow j) = arrRow (((cfg0.win 3).blk t).view.emb j) := by
    funext a; apply Fin.ext
    match a with
    | ⟨0, _⟩ => show win0_2.index t (0 : Fin 2) * 8192 + 1 * (j 0).val = win0_3.index t (0 : Fin 2) * 8192 + 1 * (j 0).val; omega
    | ⟨1, _⟩ => show win0_2.index t (1 : Fin 2) * 1 + 1 * 0 = 0; omega
  rw [h0, h1, h2]
  rfl

/-- An index of the result array is in point `t`'s block iff each coordinate is in the block's range on its axis. -/
theorem mem_blk (t : Fin cfg0.N) (i : S204800x64.Idx) :
    i ∈ ((cfg0.win 3).blk t).view.set ↔ ∀ a : Fin 2, win0_3.index t a * S8192x64.size a ≤ (i a).val ∧ (i a).val < win0_3.index t a * S8192x64.size a + S8192x64.size a := by
  show i ∈ ((View.whole main_v25).slice (win0_3.rect t)).set ↔ _
  rw [View.set_slice_whole, Rect.mem_set_unit]
  exact Iff.rfl

/-- The 25 row blocks cover the array: row `r` is in block `r / 8192`. -/
theorem cover (i : S204800x64.Idx) :
    ∃ t : Fin cfg0.N, (cfg0.win 3).flush t = true ∧ i ∈ ((cfg0.win 3).blk t).view.set := by
  have hi0 : (i 0).val < 204800 := (i 0).isLt
  have hi1 : (i 1).val < 64 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 64 ≤ (i 1).val ∧ (i 1).val < win0_3.index t (1 : Fin 2) * 64 + 64; omega

/-- The result array after the grid. -/
theorem final (c : Dev nD) :
    (dats m 0 c).arrAt 3 cfg0.N = normalized (V m c main_v22) (V m c main_v23) (V m c main_v24) :=
  (dats m 0 c).arrAt_eq_of_cover 3 (normalized (V m c main_v22) (V m c main_v23) (V m c main_v24))
    (fun t _ => flushed_eq m c t) cover

end Cert.KernelIdeal.Normalized

end
-- ==== Proof.KernelRun.lean ====
/-
  The kernel program's run, read: after the grid the two host lines keep the first 200000 rows of the padded result array
  and regroup them by batch, so @main's result is that re-laid part of the one function the grid computes, the arguments
  unchanged.
-/
import proofs.«406459_j39814346834440_3_alg».proof.Proof.KernelValue

noncomputable section

open Idealize.ShloMosaic Idealize.ShloMosaic.TcCoe Idealize.SL.Sem Idealize.ShloMosaic.StableHlo
open Idealize.ShloMosaic.Pipeline (Dat)

namespace Cert.KernelIdeal.Normalized

open Cert.KernelIdeal Cert.KernelIdeal.Gen

variable {F : FTy → Type} [FloatOps F]

/-- @main's result from the padded result array: its first 200000 rows, regrouped by batch. -/
def unpad (R : S204800x64.Idx → F .f32) : S4x50000x64.Idx → F .f32 :=
  shapeCast S4x50000x64 (extractStridedSlice S200000x64 ![0, 0] R slices_S204800x64_S200000x64_0_0)
    shapeCasts_S200000x64_S4x50000x64

variable (m : (ℓ : Loc nD τ sig) → Buf (Elt F) ℓ) (ρ : Dev nD → PrngReg)

/-- What the two lines after the call leave in @main's result buffer. -/
theorem tail_eq (c : Dev nD) :
    Pipeline.afterTail₀ cfgs (dats m) 0 (V0 m) [hostOps1] c main_v27
      = unpad (normalized (V m c main_v22) (V m c main_v23) (V m c main_v24)) := by
  unfold Pipeline.afterTail₀
  show StableHlo.after hostOps1 _ (Proc.devRef .tc main_v27) = _
  after_results
  have e : Pipeline.withArrays (cfgs 0).spec c (V0 m c) (fun w => (dats m 0 c).arrAt w (cfgs 0).N) (Proc.devRef .tc main_v25)
      = normalized (V m c main_v22) (V m c main_v23) (V m c main_v24) :=
    (Pipeline.withArrays_arr spec0 launch0.win.arr_inj c _ _ 3).trans (final m c)
  rw [e]
  rfl

/-- The run, read: @main's result is the unpadded function of the three operands the call finds; the arguments are
    unchanged. -/
theorem run : θ_run defs (onTc (τ := τ) (main (F := F))) ⟨m, fun _ => 0, ρ⟩ fun r => ∀ c : Dev nD,
      r.2.mem ((c.tc : Thread nD τ).loc main_v27) = unpad (normalized (V m c main_v22) (V m c main_v23) (V m c main_v24))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v27 (Pipeline.mem_restRefs_of main_v27 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Normalized

end
-- ==== Proof.LibEveryEntry.lean ====
/-
  Facts that hold of EVERY entry of an array survive the operations that only move entries around: a reshape, a
  slice, a broadcast and a concatenation each read every result entry off some operand entry, so a predicate true of
  all operand entries is true of all result entries. With it: an `and`-reduction of an all-ones mask from one is one,
  and a select under an all-ones mask is its first branch.
-/
import Idealize.ShloMosaic.PureOps

namespace Idealize.ShloMosaic.EveryEntry

variable {α : Type}

/-- A reshape keeps every entry. -/
theorem shapeCast {s t : Shape} (P : α → Prop) (x : s.Idx → α) (h : s.ShapeCasts t) (hx : ∀ i, P (x i)) (j : t.Idx) :
    P (Idealize.ShloMosaic.shapeCast t x h j) := hx _

/-- A slice keeps the entries it reads. -/
theorem extractStridedSlice {s t : Shape} (P : α → Prop) (off : Fin s.rank → Nat) (x : s.Idx → α) (h : s.Slices off t)
    (hx : ∀ i, P (x i)) (j : t.Idx) : P (Idealize.ShloMosaic.extractStridedSlice t off x h j) := hx _

/-- A broadcast repeats entries. -/
theorem broadcastInDim {s t : Shape} (P : α → Prop) (dims : Fin s.rank → Fin t.rank) (h : s.BroadcastsInDim t dims)
    (x : s.Idx → α) (hx : ∀ i, P (x i)) (j : t.Idx) : P (Idealize.ShloMosaic.broadcastInDim t dims h x j) := hx _

/-- A concatenation reads every entry off one of its pieces. -/
theorem concatenate {t : Shape} (P : α → Prop) (a : Fin t.rank) (xs : List ((s : Shape) × (s.Idx → α)))
    (h : Shape.Concatenates (xs.map (·.1)) t a) (hx : ∀ p ∈ xs, ∀ i, P (p.2 i)) (j : t.Idx) :
    P (Idealize.ShloMosaic.concatenate t a xs h j) := by
  unfold Idealize.ShloMosaic.concatenate
  exact hx _ (List.getElem_mem _) _

/-- Folding `and` from one over ones gives one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- An `and`-reduction, from one, of a mask whose every entry is one is one at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  unfold Host.reduce
  rw [hinit]
  exact foldl_andi_ones (fun n => x (s.rowMajor.symm n)) (fun n => hx _) _

/-- A select whose mask is one everywhere is its first branch. -/
theorem select_ones {s : Shape} (c : s.Idx → BitVec 1) (a b : s.Idx → α) (hc : ∀ i, c i = 1#1) :
    select c a b = a := by
  funext i
  show Scalar.select (c i) (a i) (b i) = a i
  rw [hc i]
  rfl

end Idealize.ShloMosaic.EveryEntry
-- ==== Proof.FaceRange.lean ====
/-
  The face table's entries are vertex numbers inside one batch, `0 ≤ faces < 50000` (the precondition's second
  conjunct). Adding the batch offset `50000 · b`, `b < 4`, gives a row of the flattened vertex table,
  `0 ≤ faces + 50000 · b < 200000`. Every half-edge end is one of these words (reshapes, the cyclic shift of a face's
  three corners and the two concatenations only move them), so every gather index is a row in range: the wrap of negative
  indices leaves it alone, and the range test `0 ≤ · ≤ 199999` that guards the gathered rows holds everywhere.
-/
import proofs.«406459_j39814346834440_3_alg».proof.Proof.Gen.ReferenceIdeal.Read
import proofs.«406459_j39814346834440_3_alg».proof.Proof.Gen.Pre_finite_inputs
import proofs.«406459_j39814346834440_3_alg».proof.Proof.LibEveryEntry
import Idealize.ShloMosaic.Lib.ReduceAll

noncomputable section

namespace Cert.ReferenceIdeal.FaceRange

open Cert.ReferenceIdeal Cert.ReferenceIdeal.Read Idealize.ShloMosaic

variable {F : FTy → Type} [FloatOps F]

/-- A word that reads, signed, as an integer in `[0, n)`. -/
def Below (n : Int) (w : BitVec 32) : Prop := 0 ≤ w.toInt ∧ w.toInt < n

theorem bmod32 {n : Int} (h₁ : -2 ^ 31 ≤ n) (h₂ : n < 2 ^ 31) : n.bmod (2 ^ 32) = n :=
  Int.bmod_eq_of_le (by omega) (by omega)

/-- The precondition's second conjunct, read back: every face entry is a vertex number of its batch. -/
theorem faces_below [Cert.Pre_finite_inputs.Facts] (x0 : FVec F Cert.Pre_finite_inputs.S4x50000x64 .f32)
    (x1 : IVec Cert.Pre_finite_inputs.S4x100000x3 32)
    (h : Cert.Pre_finite_inputs.fn (F := F) x0 x1 = fun _ => 1#1) (i : Cert.Pre_finite_inputs.S4x100000x3.Idx) :
    Below 50000 (x1 i) := by
  have h0 := congrFun h (fun a => a.elim0)
  dsimp only [Cert.Pre_finite_inputs.fn] at h0
  have h1 := (IntOp.andi_eq_one.1 h0).2
  haveI : Subsingleton Cert.Pre_finite_inputs.S_.Idx := ⟨fun a b => funext fun d => d.elim0⟩
  have h2 := Host.reduce_andi_all _ _ _ _ _ h1 i
  obtain ⟨h3, h4⟩ := IntOp.andi_eq_one.1 h2
  have h5 : (0#32 : BitVec 32).toInt ≤ (x1 i).toInt := IntOp.cmpi_sge.1 h3
  have h6 : (x1 i).toInt < (50000#32 : BitVec 32).toInt := IntOp.cmpi_slt.1 h4
  rw [show (0#32 : BitVec 32).toInt = 0 by decide] at h5
  rw [show (50000#32 : BitVec 32).toInt = 50000 by decide] at h6
  exact ⟨h5, h6⟩

/-- The batch offset `50000 · b` for `b < 4`. -/
theorem offset_small : ∀ k : Nat, k < 4 →
    0 ≤ (IntOp.muli (BitVec.ofNat 32 k) 50000#32).toInt ∧ (IntOp.muli (BitVec.ofNat 32 k) 50000#32).toInt ≤ 150000
  | 0, _ => by decide
  | 1, _ => by decide
  | 2, _ => by decide
  | 3, _ => by decide
  | n + 4, h => absurd h (by omega)

/-- A vertex number plus its batch offset is a row of the flattened table. -/
theorem flat_below (x1 : (⟨S4x100000x3, .i32⟩ : BufTy).Contents (Elt F)) (hx : ∀ i, Below 50000 (x1 i))
    (i : S4x100000x3.Idx) : Below 200000 (val_main_v5 (F := F) x1 i) := by
  rw [val_main_v5_apply, val_main_v4_apply, val_main_v3_apply, val_main_v2_apply, val_main_v0_apply, val_main_v1_apply,
    val_main_c_apply]
  obtain ⟨ha0, ha1⟩ := hx i
  obtain ⟨hc0, hc1⟩ := offset_small ((idx_main_v3 (idx_main_v4 i)) 0).val ((idx_main_v3 (idx_main_v4 i)) 0).isLt
  unfold Below
  rw [IntOp.addi, BitVec.toInt_add, bmod32 (by omega) (by omega)]
  omega

end Cert.ReferenceIdeal.FaceRange

end
-- ==== Proof.GatherGuard.lean ====
/-
  Under the precondition every gather index is a row of the flattened vertex table, so the kernel's guarded gather is
  the reference's plain gather and the two programs sum the same neighbour rows. Each half-edge end is one of the words
  `faces + 50000 · b` (the reshapes, the cyclic shift of a face's corners and the concatenations only move them), hence
  lies in `[0, 200000)`; the wrap of negative indices then keeps it, the range test passes on every row, and the select
  under the all-ones mask is its gathered branch.
-/
import proofs.«406459_j39814346834440_3_alg».proof.Proof.FaceRange
import proofs.«406459_j39814346834440_3_alg».proof.Proof.KernelHostDefs

noncomputable section

namespace Cert.KernelIdeal.GatherGuard

open Idealize.ShloMosaic Cert.ReferenceIdeal.Read Cert.ReferenceIdeal.FaceRange Cert.KernelIdeal.HostVal

variable {F : FTy → Type} [FloatOps F]

section
open Cert.ReferenceIdeal

/-- Every half-edge end (the gather's index list) is a row of the flattened table. -/
theorem ends_below (x1 : (⟨S4x100000x3, .i32⟩ : BufTy).Contents (Elt F)) (hx : ∀ i, Below 50000 (x1 i))
    (e : S2400000.Idx) : Below 200000 (val_main_v11 (F := F) x1 e) := by
  have h5 : ∀ i, Below 200000 (val_main_v5 (F := F) x1 i) := flat_below x1 hx
  have h6 : ∀ i, Below 200000 (val_main_v6 (F := F) x1 i) := EveryEntry.shapeCast _ _ _ h5
  have h7 : ∀ i, Below 200000 (val_main_v7 (F := F) x1 i) := EveryEntry.shapeCast _ _ _ h6
  have h80 : ∀ i, Below 200000 (val_main_call0_v0 (F := F) x1 i) := EveryEntry.extractStridedSlice _ _ _ _ h6
  have h81 : ∀ i, Below 200000 (val_main_call0_v1 (F := F) x1 i) := EveryEntry.extractStridedSlice _ _ _ _ h6
  have h8 : ∀ i, Below 200000 (val_main_v8 (F := F) x1 i) := EveryEntry.concatenate _ _ _ _ (by
    intro p hp
    simp only [List.mem_cons, List.mem_nil_iff, or_false] at hp
    rcases hp with rfl | rfl
    exacts [h80, h81])
  have h9 : ∀ i, Below 200000 (val_main_v9 (F := F) x1 i) := EveryEntry.shapeCast _ _ _ h8
  exact EveryEntry.concatenate _ _ _ _ (by
    intro p hp
    simp only [List.mem_cons, List.mem_nil_iff, or_false] at hp
    rcases hp with rfl | rfl
    exacts [h9, h7]) e

/-- The gather index after the wrap of negative indices: still that row, so inside `[0, 199999]`. -/
theorem index_ok (x1 : (⟨S4x100000x3, .i32⟩ : BufTy).Contents (Elt F)) (hx : ∀ i, Below 50000 (x1 i))
    (k : S2400000x1.Idx) :
    0 ≤ (val_main_v18 (F := F) x1 k).toInt ∧ (val_main_v18 (F := F) x1 k).toInt ≤ 199999 := by
  rw [val_main_v18_apply, val_main_v17_apply, val_main_v14_apply, val_main_v13_apply, val_main_c_0_apply]
  obtain ⟨h0, h1⟩ := ends_below x1 hx (idx_main_v18 k)
  have hc : ¬ IntOp.cmpi .slt (val_main_v11 (F := F) x1 (idx_main_v18 k)) 0#32 = 1 := by
    show ¬ _ = 1#1
    rw [IntOp.cmpi_slt, show (0#32 : BitVec 32).toInt = 0 by decide]; omega
  rw [Scalar.select, if_neg hc]
  exact ⟨h0, by omega⟩

end

/-- The range test passes on every row. -/
theorem rowOk_ones (x1 : Cert.KernelIdeal.S4x100000x3.Idx → BitVec 32) (hx : ∀ i, Below 50000 (x1 i))
    (e : Cert.KernelIdeal.S2400000.Idx) : rowOk (F := F) x1 e = 1#1 := by
  unfold rowOk
  refine EveryEntry.reduce_andi_ones _ _ _ _ (fun _ => rfl) (fun k => ?_) e
  obtain ⟨h0, h1⟩ := index_ok (F := F) x1 hx k
  refine IntOp.andi_eq_one.2 ⟨IntOp.cmpi_sge.2 ?_, IntOp.cmpi_sle.2 ?_⟩
  · show (0#32 : BitVec 32).toInt ≤ _
    rw [show (0#32 : BitVec 32).toInt = 0 by decide]; exact h0
  · show _ ≤ (199999#32 : BitVec 32).toInt
    rw [show (199999#32 : BitVec 32).toInt = 199999 by decide]; exact h1

/-- So the guarded gather is the plain one, -/
theorem takeRows_eq (x0 : Cert.KernelIdeal.S4x50000x64.Idx → F .f32) (x1 : Cert.KernelIdeal.S4x100000x3.Idx → BitVec 32)
    (hx : ∀ i, Below 50000 (x1 i)) : takeRows x0 x1 = val_main_v19 (F := F) x0 x1 := by
  unfold takeRows
  exact EveryEntry.select_ones _ _ _ (EveryEntry.broadcastInDim (fun b => b = 1#1) _ _ _ (rowOk_ones (F := F) x1 hx))

/-- and the neighbour sums are the reference's. -/
theorem neighRows_eq (x0 : Cert.KernelIdeal.S4x50000x64.Idx → F .f32) (x1 : Cert.KernelIdeal.S4x100000x3.Idx → BitVec 32)
    (hx : ∀ i, Below 50000 (x1 i)) : neighRows x0 x1 = val_main_v22 (F := F) x0 x1 := by
  unfold neighRows
  rw [takeRows_eq x0 x1 hx]
  rfl

end Cert.KernelIdeal.GatherGuard

end
-- ==== Proof.Bridge.lean ====
/-
  The two results, entry by entry. Entry (b, n, d) of either result is row r = 50000 b + n, column d, of a 200000 × 64
  table. The kernel computes that table on padded arrays and cuts the padding off again, so below row 200000 each padded
  operand is the unpadded one and its entry is
      (deg[r] · V[r, d] − neigh[r, d]) / (deg[r] + ε),
  which is what the reference computes from its own broadcasts of the degree column. Under the precondition the kernel's
  neighbour sums are the reference's, and over the extended reals the kernel's quotient and the host's are one operation.
-/
import proofs.«406459_j39814346834440_3_alg».proof.Proof.KernelRun
import proofs.«406459_j39814346834440_3_alg».proof.Proof.GatherGuard
import Idealize.ShloMosaic.Lib.KernelVsHost
import Idealize.ShloMosaic.PureOps.Ideal

noncomputable section

open Idealize.ShloMosaic

namespace Cert.KernelIdeal.Bridge

open Cert.KernelIdeal Cert.KernelIdeal.Gen Cert.KernelIdeal.Normalized Cert.KernelIdeal.HostVal
open Cert.ReferenceIdeal.FaceRange (Below)

variable {F : FTy → Type} [FloatOps F]

/-- Entry (b, n, d) of a result as row `50000 b + n`, column `d` of the flat table. -/
abbrev flat (i : S4x50000x64.Idx) : S200000x64.Idx := Cert.ReferenceIdeal.Read.idx_main_v36 i
/-- The degree entry of a flat table entry's row. -/
abbrev degOf (k : S200000x64.Idx) : S200000x1.Idx := Cert.ReferenceIdeal.Read.idx_main_v28 k

/-- A flat table entry as an entry of the padded arrays: the same row and column. -/
abbrev padded (k : S200000x64.Idx) : S204800x64.Idx := fun a => match a with
  | ⟨0, _⟩ => ⟨(k 0).val, by have h : (k 0).val < 200000 := (k 0).isLt; show (k 0).val < 204800; omega⟩
  | ⟨1, _⟩ => ⟨(k 1).val, (k 1).isLt⟩

/-- The kernel's result at an entry, when its three operands are paddings of `a`, `b` and the degree column `d`. -/
theorem unpad_normalized_apply (a b : S200000x64.Idx → F .f32) (d : S200000x1.Idx → F .f32) (z : S_.Idx → F .f32)
    (i : S4x50000x64.Idx) :
    unpad (normalized (pad S204800x64 ![0, 0] ![4800, 0] ![0, 0] a z pads_S200000x64_S204800x64_048000_000 h_S_)
        (pad S204800x64 ![0, 0] ![4800, 0] ![0, 0] b z pads_S200000x64_S204800x64_048000_000 h_S_)
        (pad S204800x1 ![0, 0] ![4800, 0] ![0, 0] d z pads_S200000x1_S204800x1_048000_000 h_S_)) i
      = FloatOps.divf (FloatOps.subf (FloatOps.mulf (d (degOf (flat i))) (a (flat i))) (b (flat i)))
          (FloatOps.addf (d (degOf (flat i))) (FloatOps.ofBits .f32 0x2B8CBCCC#32)) := by
  unfold unpad
  rw [shapeCast_apply _ shapeCasts_S200000x64_S4x50000x64 i (flat i)
    (by rewrite [Shape.rowMajor_val_two, Shape.rowMajor_val_three]
        have h0 : (i 0).val < 4 := (i 0).isLt
        have h1 : (i 1).val < 50000 := (i 1).isLt
        have h2 : (i 2).val < 64 := (i 2).isLt
        show (((i 0).val * 50000 + (i 1).val) * 64 + (i 2).val) / 64 * 64 + (((i 0).val * 50000 + (i 1).val) * 64 + (i 2).val) % 64 = ((i 0).val * 50000 + (i 1).val) * 64 + (i 2).val
        omega)]
  rw [extractStridedSlice_apply ![0, 0] _ slices_S204800x64_S200000x64_0_0 (flat i) (padded (flat i)) (fun a => match a with
    | ⟨0, _⟩ => by show ((flat i) 0).val = 0 + ((flat i) 0).val; omega
    | ⟨1, _⟩ => by show ((flat i) 1).val = 0 + ((flat i) 1).val; omega)]
  unfold normalized
  rw [pad_apply_of_inside ![0, 0] ![4800, 0] ![0, 0] a z pads_S200000x64_S204800x64_048000_000 h_S_ (padded (flat i)) (flat i)
      (fun a => match a with
        | ⟨0, _⟩ => by show ((flat i) 0).val = 0 + ((flat i) 0).val * (0 + 1); omega
        | ⟨1, _⟩ => by show ((flat i) 1).val = 0 + ((flat i) 1).val * (0 + 1); omega),
    pad_apply_of_inside ![0, 0] ![4800, 0] ![0, 0] b z pads_S200000x64_S204800x64_048000_000 h_S_ (padded (flat i)) (flat i)
      (fun a => match a with
        | ⟨0, _⟩ => by show ((flat i) 0).val = 0 + ((flat i) 0).val * (0 + 1); omega
        | ⟨1, _⟩ => by show ((flat i) 1).val = 0 + ((flat i) 1).val * (0 + 1); omega),
    pad_apply_of_inside ![0, 0] ![4800, 0] ![0, 0] d z pads_S200000x1_S204800x1_048000_000 h_S_ (arrRow (padded (flat i))) (degOf (flat i))
      (fun a => match a with
        | ⟨0, _⟩ => by show ((flat i) 0).val = 0 + ((flat i) 0).val * (0 + 1); omega
        | ⟨1, _⟩ => by show 0 = 0 + 0 * (0 + 1); omega)]

section
open Cert.ReferenceIdeal.Read

/-- The reference's result at an entry. -/
theorem ref_apply (x0 : Cert.ReferenceIdeal.S4x50000x64.Idx → F .f32) (x1 : Cert.ReferenceIdeal.S4x100000x3.Idx → BitVec 32)
    (i : Cert.ReferenceIdeal.S4x50000x64.Idx) :
    val_main_v36 (F := F) x0 x1 i
      = FloatOps.hostDivf (FloatOps.subf (FloatOps.mulf (val_main_v27 (F := F) x1 (degOf (flat i))) (val_main_v12 (F := F) x0 (flat i)))
            (val_main_v22 (F := F) x0 x1 (flat i)))
          (FloatOps.addf (val_main_v27 (F := F) x1 (degOf (flat i))) (FloatOps.ofBits .f32 0x2B8CBCCC#32)) := by
  rw [val_main_v36_apply, val_main_v35_apply, val_main_v30_apply, val_main_v29_apply, val_main_v28_apply,
    val_main_v34_apply, val_main_v33_apply, val_main_v32_apply, val_main_cst_4_apply]
  rfl

end

/-- Under the precondition's range of the face entries, and over the extended reals, the kernel's result (its grid's
    function of the three padded operands, unpadded) is the reference's result. -/
theorem results_agree (x0 : S4x50000x64.Idx → Ideal .f32) (x1 : S4x100000x3.Idx → BitVec 32)
    (hx : ∀ i, Below 50000 (x1 i)) :
    unpad (normalized
        (pad S204800x64 ![0, 0] ![4800, 0] ![0, 0] (Cert.ReferenceIdeal.Read.val_main_v12 (F := Ideal) x0) (padZero (F := Ideal)) pads_S200000x64_S204800x64_048000_000 h_S_)
        (pad S204800x64 ![0, 0] ![4800, 0] ![0, 0] (neighRows (F := Ideal) x0 x1) (padZero (F := Ideal)) pads_S200000x64_S204800x64_048000_000 h_S_)
        (pad S204800x1 ![0, 0] ![4800, 0] ![0, 0] (Cert.ReferenceIdeal.Read.val_main_v27 (F := Ideal) x1) (padZero (F := Ideal)) pads_S200000x1_S204800x1_048000_000 h_S_))
      = Cert.ReferenceIdeal.Read.val_main_v36 (F := Ideal) x0 x1 := by
  funext i
  rw [unpad_normalized_apply, ref_apply, Cert.KernelIdeal.GatherGuard.neighRows_eq x0 x1 hx]
  rfl

end Cert.KernelIdeal.Bridge

end
-- ==== Proof.lean ====
/-
  The certificate of the degree-normalised uniform Laplacian: for vertices V (four batches of 50000 rows, 64 columns,
  flattened to 200000 rows) and faces whose entries are vertex numbers of their batch, every half-edge (s, t) of every
  face adds row t of V to neigh[s] and one to deg[s], and the result is (deg · V − neigh) / (deg + ε), row by row.
  The kernel program computes the half-edge lists, the degree count and the sums on the host exactly as the reference
  does, except that it gathers the rows through a range test (NaN where the index is out of range); it then pads the three
  tables to 204800 rows, normalises them in 25 row blocks of 8192 on the grid and cuts the padding off again. Under the
  precondition — finite vertices and `0 ≤ faces < 50000` — every gather index is a row of the table, so the test passes
  everywhere and the two programs sum the same rows; the normalisation is the same expression entry by entry, the kernel's
  quotient and the host's being one operation on the extended reals. The frames are the generated ones (the reference's
  is its generated run); the idealization rewrote nothing, so `preserves` is `True`.
-/
import proofs.«406459_j39814346834440_3_alg».proof.Defs
import proofs.«406459_j39814346834440_3_alg».proof.Proof.Gen.Kernel
import proofs.«406459_j39814346834440_3_alg».proof.Proof.Gen.Kernel.Skeleton
import proofs.«406459_j39814346834440_3_alg».proof.Proof.Gen.Kernel.Launch
import proofs.«406459_j39814346834440_3_alg».proof.Proof.Gen.Kernel.Points
import proofs.«406459_j39814346834440_3_alg».proof.Proof.Gen.Kernel.Frame
import proofs.«406459_j39814346834440_3_alg».proof.Proof.Gen.KernelIdeal
import proofs.«406459_j39814346834440_3_alg».proof.Proof.Gen.KernelIdeal.Skeleton
import proofs.«406459_j39814346834440_3_alg».proof.Proof.Gen.KernelIdeal.Launch
import proofs.«406459_j39814346834440_3_alg».proof.Proof.Gen.KernelIdeal.Points
import proofs.«406459_j39814346834440_3_alg».proof.Proof.Gen.KernelIdeal.Frame
import proofs.«406459_j39814346834440_3_alg».proof.Proof.Gen.ReferenceIdeal
import proofs.«406459_j39814346834440_3_alg».proof.Proof.Gen.Pre_finite_inputs
import proofs.«406459_j39814346834440_3_alg».proof.Proof.Gen.ReferenceIdeal.Run
import proofs.«406459_j39814346834440_3_alg».proof.Proof.Gen.ReferenceIdeal.Read
import proofs.«406459_j39814346834440_3_alg».proof.Proof.KernelHost
import proofs.«406459_j39814346834440_3_alg».proof.Proof.KernelRun
import proofs.«406459_j39814346834440_3_alg».proof.Proof.Bridge
import Idealize.ShloMosaic.Adequacy
import Idealize.ShloMosaic.Init

noncomputable section

namespace Cert.Proof

open Idealize.ShloMosaic Idealize.SL.Sem

/-- The word-level kernel program terminates without a fault and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result term of the (agreeing) arguments: the kernel's run leaves the unpadded
    grid function of its three operands, which are the padded flat table, neighbour sums and degree column; the face
    entries' range, read off the precondition, makes that the reference's term. -/
theorem algebraic : Cert.algebraic_KernelIdeal_ReferenceIdeal := by
  intro m ρ m' ρ' hpre hagree
  refine ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Normalized.run (F := Ideal) m ρ)
    rw [Cert.KernelIdeal.HostVal.v22_eq, Cert.KernelIdeal.HostVal.v23_eq, Cert.KernelIdeal.HostVal.v24_eq]
    exact Cert.KernelIdeal.Bridge.results_agree _ _
      (fun i => Cert.ReferenceIdeal.FaceRange.faces_below _ _ (hpre c) i)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
